-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x128 .f32) (main_arg9 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S200000x256 .f32) (main_arg1 : IVec S200000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S200000x128 : Shape := ⟨2, ![200000, 128]⟩
abbrev S200000x1 : Shape := ⟨2, ![200000, 1]⟩
abbrev S2000x256 : Shape := ⟨2, ![2000, 256]⟩
abbrev S2000x128 : Shape := ⟨2, ![2000, 128]⟩
abbrev S2000x1 : Shape := ⟨2, ![2000, 1]⟩
abbrev S2000 : Shape := ⟨1, ![2000]⟩

abbrev nBuf : Space → Nat
  | .hbm => 17
  | .vmem => 14
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x128, .f32⟩
  | .hbm, ⟨14, _⟩ => ⟨S200000x128, .f32⟩
  | .hbm, ⟨15, _⟩ => ⟨S200000x1, .f32⟩
  | .hbm, ⟨16, _⟩ => ⟨S200000, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S256_S1x256 : S256.ShapeCasts S1x256
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S200000x1_S200000 : S200000x1.ShapeCasts S200000
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S200000x128.size a
  hwx0_9 : ∀ i : grid0.Coords, EltTy.bits .f32 = 32 ∨ (Rect.block (s := S200000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x1.size a ≤ S200000x1.size a
  hwx0_10 : ∀ i : grid0.Coords, EltTy.bits .f32 = 32 ∨ (Rect.block (s := S200000x1) S2000x1.size (cc0_transform_10 i) (hinb0_10 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S2000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S200000x256 : Shape := ⟨2, ![200000, 256]⟩
abbrev S200000 : Shape := ⟨1, ![200000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S200000x1 : Shape := ⟨2, ![200000, 1]⟩
abbrev S1x256 : Shape := ⟨2, ![1, 256]⟩
abbrev S200000x128 : Shape := ⟨2, ![200000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S200000, .i32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S200000x256, .f32⟩
  | .hbm, ⟨20, _⟩ => ⟨S_, .f32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000x256, .f32⟩
  | .hbm, ⟨26, _⟩ => ⟨S1x256, .f32⟩
  | .hbm, ⟨27, _⟩ => ⟨S200000x256, .f32⟩
  | .hbm, ⟨28, _⟩ => ⟨S200000x256, .f32⟩
  | .hbm, ⟨29, _⟩ => ⟨S_, .f32⟩
  | .hbm, ⟨30, _⟩ => ⟨S200000x256, .f32⟩
  | .hbm, ⟨31, _⟩ => ⟨S200000x256, .f32⟩
  | .hbm, ⟨32, _⟩ => ⟨S200000x256, .f32⟩
  | .hbm, ⟨33, _⟩ => ⟨S1x256, .f32⟩
  | .hbm, ⟨34, _⟩ => ⟨S200000x256, .f32⟩
  | .hbm, ⟨35, _⟩ => ⟨S200000x256, .f32⟩
  | .hbm, ⟨36, _⟩ => ⟨S_, .f32⟩
  | .hbm, ⟨37, _⟩ => ⟨S200000x256, .f32⟩
  | .hbm, ⟨38, _⟩ => ⟨S200000x256, .f32⟩
  | .hbm, ⟨39, _⟩ => ⟨S200000x256, .f32⟩
  | .hbm, ⟨40, _⟩ => ⟨S1x256, .f32⟩
  | .hbm, ⟨41, _⟩ => ⟨S200000x256, .f32⟩
  | .hbm, ⟨42, _⟩ => ⟨S200000x256, .f32⟩
  | .hbm, ⟨43, _⟩ => ⟨S_, .f32⟩
  | .hbm, ⟨44, _⟩ => ⟨S200000x256, .f32⟩
  | .hbm, ⟨45, _⟩ => ⟨S200000x256, .f32⟩
  | .hbm, ⟨46, _⟩ => ⟨S200000x128, .f32⟩
  | .hbm, ⟨47, _⟩ => ⟨S1x128, .f32⟩
  | .hbm, ⟨48, _⟩ => ⟨S200000x128, .f32⟩
  | .hbm, ⟨49, _⟩ => ⟨S200000x128, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_cst : Ref sig .tc := ⟨.hbm, 36, rfl⟩
abbrev main_call1_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  reducesTo_S200000x256_S200000_d1 : S200000x256.ReducesTo [1] S200000
  h_S_ : 0 < S_.numel
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x256_S200000x1_S200000x256_1_0_n_n_0_1_1256_wf : GatherDims.WF S200000x256 S200000x1 S200000x256 [1] [0] [] [0] [] 1 ![1, 256]
  dot_S200000x256_S256x256_S200000x256_1_0_0_1_n_n_wf : DotDims.WF S200000x256 S256x256 S200000x256 [1] [0] [0] [1] [] []
  dot_S200000x256_S256x128_S200000x128_1_0_0_1_n_n_wf : DotDims.WF S200000x256 S256x128 S200000x128 [1] [0] [0] [1] [] []

variable [Facts₀]

def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.LibRowGather.lean ====
/-
  A gather of whole rows, read at an index, and the positions 0, 1, 2, … as start indices.

  `x[idx]` of a matrix `x : [N, C]` at a vector of row positions lowers to a gather whose start indices are the
  [n × 1] column of positions, whose row axis is collapsed and start-indexed and whose column axis is the one offset axis
  (slice sizes [1, C]).  Entry `(p, q)` of the result is the operand at row "position `p`'s start index, read signed
  and clamped into the matrix" and column `q`.  When the positions are `0, 1, 2, …` themselves (after jnp's wrap of a
  negative index, which leaves a non-negative one alone) the gather is the identity.
  Everything is generic in the extents.
-/
import Idealize.ShloMosaic.Lib.ValueIdx
import Idealize.ShloMosaic.Lib.StableHlo.Predicate

noncomputable section

namespace RowGather

open Idealize.ShloMosaic Idealize.ShloMosaic.ValueIdx

/-- THE ROW GATHER at `(p, q)`: the operand at the clamped start index of position `p`, column `q`. The five hypotheses are
    the printed dimension numbers, each by `rfl`. -/
theorem gather_rows_apply {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q)
      = x (ix2 (⟨min (idx (ix2 p (0 : Fin 1))).toInt.toNat (N - 1), by omega⟩ : Fin N) q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = _
    rw [hsl]
    -- the start-indices index read for position `p`: row `p` of the column, its one component
    have hsi : d.siIdx (ix2 p q) ⟨List.idxOf (0 : Fin 2) d.startIndexMap, List.idxOf_lt_length_iff.2 hm⟩
        = ix2 p (0 : Fin 1) := by
      funext b
      match b with
      | ⟨0, _⟩ =>
        unfold GatherDims.siIdx
        rw [dif_neg (by rw [hivd]; simp)]
        unfold GatherDims.siCoord
        apply Fin.ext
        simp only [Fin.val_cast]
        -- the result's batch axes are the ones that are no offset axis: axis 0 alone
        have e : ∀ X : Fin 2, X ∈ d.batchDims → ((ix2 p q : (⟨2, ![n, C]⟩ : Shape).Idx) X).val = p.val := by
          intro X hX
          have hX' : X ∉ d.offsetDims := by
            have := hX; simp only [GatherDims.batchDims, Shape.kept, List.mem_filter, List.mem_finRange] at this
            simpa using this
          rw [hoff] at hX'
          match X with
          | ⟨0, _⟩ => rfl
          | ⟨1, _⟩ => exact absurd (List.mem_singleton.mpr rfl) hX'
        exact e _ (List.getElem_mem _)
      | ⟨1, _⟩ =>
        unfold GatherDims.siIdx
        rw [dif_pos (by rw [hivd])]
        apply Fin.ext
        show List.idxOf (0 : Fin 2) d.startIndexMap = 0
        rw [hsim]; simp
    rw [hsi]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1), Nat.add_zero]
    unfold GatherDims.start GatherDims.offCoord
    rw [dif_neg hm, dif_pos hk, Nat.zero_add]
    -- the one offset axis of the result is axis 1
    have e : ∀ X : Fin 2, X ∈ d.offsetDims → ((ix2 p q : (⟨2, ![n, C]⟩ : Shape).Idx) X).val = q.val := by
      intro X hX
      rw [hoff] at hX
      obtain rfl := List.mem_singleton.mp hX
      rfl
    exact e _ (List.getElem_mem _)

/-- jnp's wrap of a possibly negative position (`where(i < 0, i + N, i)`) leaves a small non-negative position alone. -/
theorem wrap_nonneg (p : ℕ) (hp : p < 2 ^ 31) (cN : BitVec 32) :
    Scalar.select (IntOp.cmpi .slt (BitVec.ofNat 32 p) 0#32) (IntOp.addi (BitVec.ofNat 32 p) cN) (BitVec.ofNat 32 p)
      = BitVec.ofNat 32 p := by
  have hlt : (BitVec.ofNat 32 p).toNat < 2 ^ 31 := by simp only [BitVec.toNat_ofNat]; omega
  have h0 : ¬ IntOp.cmpi .slt (BitVec.ofNat 32 p) 0#32 = 1#1 := by
    rw [StableHlo.Predicate.slt_iff_toNat hlt (by decide)]
    simp
  rw [eq_zero_of_ne_one h0, select_zero]

/-- A small position read back signed is the position. -/
theorem toInt_toNat_ofNat (p : ℕ) (hp : p < 2 ^ 31) : (BitVec.ofNat 32 p).toInt.toNat = p := by
  have hlt : (BitVec.ofNat 32 p).toNat < 2 ^ 31 := by simp only [BitVec.toNat_ofNat]; omega
  have hv : (BitVec.ofNat 32 p).toNat = p := by simp only [BitVec.toNat_ofNat]; omega
  rw [StableHlo.Predicate.toInt_eq_toNat_of_lt hlt, hv]
  rfl

end RowGather

end
-- ==== Proof.NodeNet.lean ====
/-
  What both programs compute, one node at a time.

  Each of the 200000 nodes carries a row of 256 features.  Two things are computed from a row and from nothing else:
  its mean (the sum of its 256 entries divided by 256), and the image of the row under a four-layer dense network
  (256 → 256 → 256 → 256 → 128: three hidden layers each followed by the positive part, then a projection).
  The reference's gather of the rows at positions 0, 1, 2, … is the identity, so the neighbour mean is the mean of the
  node's own row.  A sum over the extended reals does not depend on the order or grouping of its terms, and no other law
  is used: the two programs spell the same function, so finiteness of the inputs is never needed.
-/
import proofs.«159583_j41540923687233_1_alg».proof.Proof.LibRowOps

noncomputable section

open scoped BigOperators

namespace NodeNet

open Idealize.ShloMosaic Idealize.ShloMosaic.ValueIdx RowOps

/-- A weight matrix and a bias as extended-real arrays. -/
abbrev Mat (K H : ℕ) : Type := (⟨2, ![K, H]⟩ : Shape).Idx → EReal
abbrev Bias (H : ℕ) : Type := (⟨1, ![H]⟩ : Shape).Idx → EReal

/-- One hidden layer on a row: the dense layer followed by the positive part. -/
def hiddenLayer {K H : ℕ} (W : Mat K H) (b : Bias H) (x : Fin K → EReal) : Fin H → EReal := relu (dense W b x)

/-- The network on one row: three hidden layers, then the output projection. -/
def netRow (W1 : Mat 256 256) (b1 : Bias 256) (W2 : Mat 256 256) (b2 : Bias 256) (W3 : Mat 256 256) (b3 : Bias 256)
    (Wo : Mat 256 128) (bo : Bias 128) (x : Fin 256 → EReal) : Fin 128 → EReal :=
  dense Wo bo (hiddenLayer W3 b3 (hiddenLayer W2 b2 (hiddenLayer W1 b1 x)))

/-- The mean of a row of 256 entries: their sum divided by the number both programs spell as the word of 256.0. -/
def meanRow (x : Fin 256 → EReal) : EReal := Ideal.div (∑ k : Fin 256, x k) (Ideal.ofBits .f32 0x43800000#32)

/-- Row `n` of the node array. -/
def rowOf {R K : ℕ} (X : Mat R K) (n : Fin R) : Fin K → EReal := fun k => X (ix2 n k)

/-- The first result: entry `(n, h)` is entry `h` of the network applied to node `n`'s row. -/
def netOut (X : Mat 200000 256) (W1 : Mat 256 256) (b1 : Bias 256) (W2 : Mat 256 256) (b2 : Bias 256) (W3 : Mat 256 256)
    (b3 : Bias 256) (Wo : Mat 256 128) (bo : Bias 128) : (⟨2, ![200000, 128]⟩ : Shape).Idx → EReal :=
  fun i => netRow W1 b1 W2 b2 W3 b3 Wo bo (rowOf X (i 0)) (i 1)

/-- The second result: entry `n` is the mean of node `n`'s row. -/
def meanOut (X : Mat 200000 256) : (⟨1, ![200000]⟩ : Shape).Idx → EReal := fun i => meanRow (rowOf X (i 0))

end NodeNet

end
-- ==== Proof.RefRows.lean ====
/-
  The reference's two results are the specification.

  Its network result is, layer by layer, a matrix product plus a bias broadcast down the rows, followed (for the three
  hidden layers) by the maximum with zero: entry `(n, h)` depends on row `n` of the previous layer alone, so the whole
  term at `(n, h)` is the network applied to node `n`'s row.  Its mean result sums, over the 256 columns, a gather of the
  node array at the start indices `0, 1, 2, …` (each passed through jnp's wrap of a negative index, which does nothing to
  them, and then clamped into the array, which does nothing either): the gather is the identity, and the sum starts from
  the zero word.
-/
import proofs.«159583_j41540923687233_1_alg».proof.Proof.Gen.ReferenceIdeal.Run
import proofs.«159583_j41540923687233_1_alg».proof.Proof.Gen.ReferenceIdeal.Read
import proofs.«159583_j41540923687233_1_alg».proof.Proof.LibRowOps
import proofs.«159583_j41540923687233_1_alg».proof.Proof.LibRowGather
import proofs.«159583_j41540923687233_1_alg».proof.Proof.NodeNet

noncomputable section

open scoped BigOperators

namespace Cert.ReferenceIdeal.Rows

open Cert.ReferenceIdeal Cert.ReferenceIdeal.Gen Cert.ReferenceIdeal.Read Idealize.ShloMosaic Idealize.ShloMosaic.ValueIdx
open RowOps NodeNet

/-! ## A hidden layer of the reference, read at a row -/

/-- The reference's hidden layer — product, bias in two broadcasts, maximum with the broadcast zero — sends row `n` of its
    input to `hiddenLayer W b` of that row. -/
theorem hidden_host_row {R K H : ℕ} (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (d0 : Fin 0 → Fin 2) (hb : (⟨0, ![]⟩ : Shape).BroadcastsInDim ⟨2, ![R, H]⟩ d0) (n : Fin R) :
    (fun h : Fin H => maximumf (addf (Host.dotGeneral d none y W)
        (broadcastInDim ⟨2, ![R, H]⟩ ![0, 1] h2 (broadcastInDim ⟨2, ![1, H]⟩ ![1] h1 b)))
        (broadcastInDim ⟨2, ![R, H]⟩ d0 hb (constant (F := Ideal) ⟨0, ![]⟩ .f32 0x00000000#32)) (ix2 n h))
      = hiddenLayer W b (fun k => y (ix2 n k)) := by
  funext h
  rw [relu_host_apply]
  unfold hiddenLayer
  refine congrFun (congrArg relu (funext fun j => ?_)) h
  exact dense_host_apply' d hd y W b h1 h2 n j

/-! ## The network result -/

/-- The reference's first result is the network applied to each node's row. -/
theorem net_eq (X : FVec Ideal S200000x256 .f32) (W1 : FVec Ideal S256x256 .f32) (b1 : FVec Ideal S256 .f32)
    (W2 : FVec Ideal S256x256 .f32) (b2 : FVec Ideal S256 .f32) (W3 : FVec Ideal S256x256 .f32) (b3 : FVec Ideal S256 .f32)
    (Wo : FVec Ideal S256x128 .f32) (bo : FVec Ideal S128 .f32) :
    val_main_v29 (F := Ideal) X W1 b1 W2 b2 W3 b3 Wo bo = netOut X W1 b1 W2 b2 W3 b3 Wo bo := by
  rw [← val_main_v29_eq]
  funext i
  obtain ⟨n, h, rfl⟩ : ∃ (n : Fin 200000) (h : Fin 128), i = ix2 n h := ⟨i 0, i 1, eq_ix2 i⟩
  rw [dense_host_apply' dot_S200000x256_S256x128_S200000x128_1_0_0_1_n_n rfl]
  simp only [hidden_host_row dot_S200000x256_S256x256_S200000x256_1_0_0_1_n_n rfl]
  rfl

/-! ## The mean result -/

/-- The start index the gather reads for node `n` is `n` itself. -/
theorem start_index (n : Fin 200000) : val_main_v6 (F := Ideal) (ix2 n (0 : Fin 1)) = BitVec.ofNat 32 n.val := by
  rw [val_main_v6_apply, val_main_v5_apply, val_main_v2_apply, val_main_v4_apply, val_main_v0_apply, val_main_v1_apply,
    val_main_v3_apply, val_main_c_apply, val_main_c_0_apply]
  exact RowGather.wrap_nonneg n.val (by have := n.isLt; omega) _

/-- The gathered rows are the rows. -/
theorem gather_eq (X : FVec Ideal S200000x256 .f32) (n : Fin 200000) (k : Fin 256) :
    val_main_v7 (F := Ideal) X (ix2 n k) = X (ix2 n k) := by
  unfold val_main_v7
  rw [RowGather.gather_rows_apply gather_S200000x256_S200000x1_S200000x256_1_0_n_n_0_1_1256 rfl rfl rfl rfl rfl X _ n k (by decide)]
  refine congrArg X (congrArg (fun r => ix2 r k) (Fin.ext ?_))
  show min (val_main_v6 (F := Ideal) (ix2 n (0 : Fin 1))).toInt.toNat (200000 - 1) = n.val
  rw [start_index, RowGather.toInt_toNat_ofNat n.val (by have := n.isLt; omega)]
  have := n.isLt
  omega

/-- The reference's second result is each node's row mean. -/
theorem mean_eq (X : FVec Ideal S200000x256 .f32) : val_main_v10 (F := Ideal) X = meanOut X := by
  funext i
  obtain ⟨n, rfl⟩ : ∃ n : Fin 200000, i = ix1 n := ⟨i 0, eq_ix1 i⟩
  rw [val_main_v10_apply, val_main_v8_apply, val_main_v9_apply, val_main_cst_apply, val_main_cst_1_apply]
  show Ideal.div (Ideal.ofBits .f32 0x00000000#32 + ∑ k : Fin 256, val_main_v7 (F := Ideal) X (idx_main_v8 (ix1 n) k))
      (Ideal.ofBits .f32 0x43800000#32) = Ideal.div (∑ k : Fin 256, X (ix2 n k)) (Ideal.ofBits .f32 0x43800000#32)
  rw [Ideal.ofBits_zero_f32, zero_add]
  refine congrArg (fun s => Ideal.div s _) (Finset.sum_congr rfl fun k _ => ?_)
  have e : idx_main_v8 (ix1 n) k = ix2 n k := funext fun a => Fin.ext (by match a with | ⟨0, _⟩ => rfl | ⟨1, _⟩ => rfl)
  rw [e]
  exact gather_eq X n k

end Cert.ReferenceIdeal.Rows

end
-- ==== Proof.KernelRows.lean ====
/-
  What the kernel body computes on one block of 2000 nodes, read at a row.

  The body loads a block of 2000 rows and the four weight matrices and bias rows whole, and stores two things: the
  column of the rows' means, and the network applied to every row.  Each layer is a matrix product of the (narrowed, at
  the ideal values unchanged) operands into a zero accumulator plus the bias row broadcast down the rows; the positive
  part is the maximum with a splat of the zero word.  Entry `(p, h)` of a layer depends on row `p` of the layer before it
  alone, so row `p` of the stored block is the network applied to row `p` of the loaded block.  The kernel's biases arrive
  as [1 × H] rows (the host reshapes them before the call); `rowBias` reads such a row as a bias vector.
-/
import proofs.«159583_j41540923687233_1_alg».proof.Proof.Gen.KernelIdeal.Skeleton
import proofs.«159583_j41540923687233_1_alg».proof.Proof.LibRowOps
import proofs.«159583_j41540923687233_1_alg».proof.Proof.NodeNet

noncomputable section

open scoped BigOperators

namespace Cert.KernelIdeal.Rows

open Cert.KernelIdeal Cert.KernelIdeal.Gen Idealize.ShloMosaic Idealize.ShloMosaic.ValueIdx
open RowOps NodeNet

/-! ## A bias held as one row -/

/-- A [1 × H] row read as a bias vector. -/
def rowBias {H : ℕ} (b2 : (⟨2, ![1, H]⟩ : Shape).Idx → EReal) : Bias H := fun i => b2 (ix2 (0 : Fin 1) (i 0))

/-! ## A layer of the kernel, read at a row -/

/-- The kernel's dense layer with the bias already a row: product into the zero splat, plus the row broadcast down. -/
theorem dense_kernel_row_apply {R K H : ℕ} (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b2 : FVec Ideal ⟨2, ![1, H]⟩ .f32)
    (hy : FTy.bf16.bits < FTy.f32.bits) (hW : FTy.bf16.bits < FTy.f32.bits)
    (hsc : (⟨2, ![1, H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b2 hsc) hbc) (ix2 n h)
      = dense W (rowBias b2) (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b2 hsc) hbc (ix2 n h) = _
  rw [matmul_plain_apply d hd, broadcastTo_1b_ab_apply, shapeCast_self]
  rfl

/-- The kernel's hidden layer sends row `n` of its input to `hiddenLayer W (rowBias b2)` of that row. -/
theorem hidden_kernel_row {R K H : ℕ} (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b2 : FVec Ideal ⟨2, ![1, H]⟩ .f32)
    (hy : FTy.bf16.bits < FTy.f32.bits) (hW : FTy.bf16.bits < FTy.f32.bits)
    (hsc : (⟨2, ![1, H]⟩ : Shape).ShapeCasts ⟨2, ![1, H]⟩) (hbc : (⟨2, ![1, H]⟩ : Shape).Broadcasts ⟨2, ![R, H]⟩)
    (n : Fin R) :
    (fun h : Fin H => maximumf (addf (matmul d none (truncf .bf16 y hy) (truncf .bf16 W hW) (constant ⟨2, ![R, H]⟩ .f32 0x00000000#32))
        (broadcastTo ⟨2, ![R, H]⟩ (shapeCast ⟨2, ![1, H]⟩ b2 hsc) hbc))
        (broadcast ⟨2, ![R, H]⟩ (Scalar.ofBits (F := Ideal) .f32 0x00000000#32)) (ix2 n h))
      = hiddenLayer W (rowBias b2) (fun k => y (ix2 n k)) := by
  funext h
  rw [relu_kernel_apply]
  unfold hiddenLayer
  refine congrFun (congrArg relu (funext fun j => ?_)) h
  exact dense_kernel_row_apply d hd y W b2 hy hW hsc hbc n j

/-! ## The stored network block -/

/-- Row `p` of the network block the body stores is the network applied to row `p` of the loaded block. -/
theorem net_block_apply (x0 : Vec Ideal S2000x256 .f32) (w1 : Vec Ideal S256x256 .f32) (b1 : Vec Ideal S1x256 .f32)
    (w2 : Vec Ideal S256x256 .f32) (b2 : Vec Ideal S1x256 .f32) (w3 : Vec Ideal S256x256 .f32) (b3 : Vec Ideal S1x256 .f32)
    (wo : Vec Ideal S256x128 .f32) (bo : Vec Ideal S1x128 .f32) (p : Fin 2000) (h : Fin 128) :
    k0_pay1 (F := Ideal) (k0_pay3 (F := Ideal) x0 w1 b1 w2 b2 w3 b3) (Scalar.ofBits .f32 0x00000000#32) wo bo (ix2 p h)
      = netRow w1 (rowBias b1) w2 (rowBias b2) w3 (rowBias b3) wo (rowBias bo) (fun k => x0 (ix2 p k)) h := by
  unfold k0_pay1 k0_pay3
  dsimp only
  rw [dense_kernel_row_apply dot_S2000x256_S256x128_S2000x128_1_0_0_1_n_n rfl]
  simp only [hidden_kernel_row dot_S2000x256_S256x256_S2000x256_1_0_0_1_n_n rfl]
  rfl

/-! ## The stored column of means -/

/-- A vector kept as a column: `(p, 0)` reads position `p`. -/
theorem shapeCast_a_a1_apply {α : Type} {a : ℕ} (v : (⟨1, ![a]⟩ : Shape).Idx → α)
    (hsc : (⟨1, ![a]⟩ : Shape).ShapeCasts ⟨2, ![a, 1]⟩) (p : Fin a) (u : Fin 1) :
    shapeCast ⟨2, ![a, 1]⟩ v hsc (ix2 p u) = v (ix1 p) :=
  shapeCast_apply v hsc _ _ (by
    have hu : u.val = 0 := by omega
    rw [Shape.rowMajor_val_two, Shape.rowMajor_val_one]
    show p.val = p.val * 1 + u.val
    rw [hu, Nat.mul_one, Nat.add_zero])

/-- The sum along the columns of a block, at row `p`. -/
theorem rowSum_apply (x0 : FVec Ideal S2000x256 .f32) (hr : S2000x256.Reduces [1] S2000) (hφ : FKind.Formats FTy.f32)
    (hacc : (0x00000000#32 : BitVec 32) = 0x00000000#32) (p : Fin 2000) :
    multiReduction (F := Ideal) .add [1] S2000 x0 0x00000000#32 hr hφ hacc (ix1 p) = ∑ k : Fin 256, x0 (ix2 p k) := by
  refine (Ideal.multiReduction_add_single x0 0x00000000#32 hr hφ hacc (ix1 p)).trans ?_
  refine Finset.sum_congr rfl fun k _ => congrArg x0 (funext fun a => Fin.ext ?_)
  match a with
  | ⟨0, _⟩ => rfl
  | ⟨1, _⟩ => rfl

/-- Entry `(p, 0)` of the column the body stores is the mean of row `p` of the loaded block. -/
theorem mean_block_apply (x0 : Vec Ideal S2000x256 .f32) (p : Fin 2000) (u : Fin 1) :
    k0_pay2 (F := Ideal) x0 (ix2 p u) = meanRow (fun k => x0 (ix2 p k)) := by
  unfold k0_pay2
  dsimp only
  show Ideal.div (shapeCast S2000x1 (multiReduction (F := Ideal) .add [1] S2000 x0 0x00000000#32 reduces_S2000x256_S2000 (.inl rfl) rfl)
      shapeCasts_S2000_S2000x1 (ix2 p u)) (Ideal.ofBits .f32 0x43800000#32) = _
  rw [shapeCast_a_a1_apply, rowSum_apply]
  rfl

end Cert.KernelIdeal.Rows

end
-- ==== Proof.KernelArrays.lean ====
/-
  From the blocks the kernel writes back to its two result arrays.

  The grid has 100 points; point `t` loads rows `2000 t … 2000 t + 1999` of the node array and every weight matrix and
  bias row whole, and writes back rows `2000 t … 2000 t + 1999` of the two results.  The 100 row blocks tile each result,
  so after the run the network result holds the network applied to every node's row and the column result every node's
  row mean; the host then reads the column as a vector.  The bias rows the kernel loads are the host's reshapes of the
  bias vectors, made before the call.
-/
import proofs.«159583_j41540923687233_1_alg».proof.Proof.Gen.KernelIdeal.Frame
import proofs.«159583_j41540923687233_1_alg».proof.Proof.KernelRows
import Idealize.ShloMosaic.Lib.Pipeline.Value
import Idealize.ShloMosaic.Lib.StableHlo.Run
import Idealize.ShloMosaic.Lib.Tactic

noncomputable section

open scoped BigOperators

namespace Cert.KernelIdeal.Arrays

open Cert.KernelIdeal Cert.KernelIdeal.Gen Cert.KernelIdeal.Rows
open Idealize.ShloMosaic Idealize.ShloMosaic.TcCoe Idealize.SL.Sem Idealize.ShloMosaic.ValueIdx
open Idealize.ShloMosaic.Pipeline (Dat)
open RowOps NodeNet

variable (m : (ℓ : Loc nD τ sig) → Buf (Elt Ideal) ℓ) (ρ : Dev nD → PrngReg)

/-! ## The arguments as launched -/

abbrev argX (c : Dev nD) : FVec Ideal S200000x256 .f32 := m ((c : Thread nD τ).loc main_arg0)
abbrev argW1 (c : Dev nD) : FVec Ideal S256x256 .f32 := m ((c : Thread nD τ).loc main_arg2)
abbrev argB1 (c : Dev nD) : FVec Ideal S256 .f32 := m ((c : Thread nD τ).loc main_arg3)
abbrev argW2 (c : Dev nD) : FVec Ideal S256x256 .f32 := m ((c : Thread nD τ).loc main_arg4)
abbrev argB2 (c : Dev nD) : FVec Ideal S256 .f32 := m ((c : Thread nD τ).loc main_arg5)
abbrev argW3 (c : Dev nD) : FVec Ideal S256x256 .f32 := m ((c : Thread nD τ).loc main_arg6)
abbrev argB3 (c : Dev nD) : FVec Ideal S256 .f32 := m ((c : Thread nD τ).loc main_arg7)
abbrev argWo (c : Dev nD) : FVec Ideal S256x128 .f32 := m ((c : Thread nD τ).loc main_arg8)
abbrev argBo (c : Dev nD) : FVec Ideal S128 .f32 := m ((c : Thread nD τ).loc main_arg9)

/-! ## The printed index maps over the grid -/

/-- The node window and the two result windows move down the rows with the grid point. -/
theorem idx_rows : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The weight and bias windows stay at block (0, 0). -/
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem N_eq : cfg0.N = 100 := N_0

/-! ## The loaded blocks -/

/-- Row `p` of the node block at point `t` is row `2000 t + p` of the node array. -/
theorem node_block_apply (c : Dev nD) (t : Fin cfg0.N) (p : Fin 2000) (k : Fin 256) (r : Fin 200000)
    (hr : r.val = t.val * 2000 + p.val) :
    (iblk m c 0 t : Vec Ideal S2000x256 .f32) (ix2 p k) = argX m c (ix2 r k) := by
  obtain ⟨e0, e1, -⟩ := idx_rows t
  unfold iblk
  rw [View.read_apply]
  show V m c main_arg0 _ = _
  rw [V_main_arg0]
  show m ((c : Thread nD τ).loc main_arg0) _ = m ((c : Thread nD τ).loc main_arg0) (ix2 r k)
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The first weight matrix is loaded whole. -/
theorem w1_block (c : Dev nD) (t : Fin cfg0.N) : (iblk m c 1 t : Vec Ideal S256x256 .f32) = argW1 m c := by
  obtain ⟨⟨e0, e1⟩, -⟩ := idx_whole t
  funext y
  unfold iblk
  rw [View.read_apply]
  show V m c main_arg2 _ = _
  rw [V_main_arg2]
  show m ((c : Thread nD τ).loc main_arg2) _ = m ((c : Thread nD τ).loc main_arg2) y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The array the first bias window stages is the host's reshape of the bias vector to one row. -/
theorem V_bias1 (c : Dev nD) : (V m c main_v0 : S1x256.Idx → EReal) = shapeCast S1x256 (argB1 m c) shapeCasts_S256_S1x256 := by
  show StableHlo.after hostOps0 (fun b => m (c, b)) (Proc.devRef .tc main_v0) = _
  after_results
  rfl

/-- The other windows' arrays, as the region finds them. -/
theorem V_bias2 (c : Dev nD) : (V m c main_v1 : S1x256.Idx → EReal) = shapeCast S1x256 (argB2 m c) shapeCasts_S256_S1x256 := by
  show StableHlo.after hostOps0 (fun b => m (c, b)) (Proc.devRef .tc main_v1) = _
  after_results
  rfl
theorem V_bias3 (c : Dev nD) : (V m c main_v2 : S1x256.Idx → EReal) = shapeCast S1x256 (argB3 m c) shapeCasts_S256_S1x256 := by
  show StableHlo.after hostOps0 (fun b => m (c, b)) (Proc.devRef .tc main_v2) = _
  after_results
  rfl
theorem V_biaso (c : Dev nD) : (V m c main_v3 : S1x128.Idx → EReal) = shapeCast S1x128 (argBo m c) shapeCasts_S128_S1x128 := by
  show StableHlo.after hostOps0 (fun b => m (c, b)) (Proc.devRef .tc main_v3) = _
  after_results
  rfl

theorem w2_block (c : Dev nD) (t : Fin cfg0.N) : (iblk m c 3 t : Vec Ideal S256x256 .f32) = argW2 m c := by
  obtain ⟨-, -, ⟨e0, e1⟩, -⟩ := idx_whole t
  funext y
  unfold iblk
  rw [View.read_apply]
  show V m c main_arg4 _ = _
  rw [V_main_arg4]
  show m ((c : Thread nD τ).loc main_arg4) _ = m ((c : Thread nD τ).loc main_arg4) y
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem w3_block (c : Dev nD) (t : Fin cfg0.N) : (iblk m c 5 t : Vec Ideal S256x256 .f32) = argW3 m c := by
  obtain ⟨-, -, -, -, ⟨e0, e1⟩, -⟩ := idx_whole t
  funext y
  unfold iblk
  rw [View.read_apply]
  show V m c main_arg6 _ = _
  rw [V_main_arg6]
  show m ((c : Thread nD τ).loc main_arg6) _ = m ((c : Thread nD τ).loc main_arg6) y
  congr 1
  funext a
  apply Fin.ext
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

theorem wo_block (c : Dev nD) (t : Fin cfg0.N) : (iblk m c 7 t : Vec Ideal S256x128 .f32) = argWo m c := by
  obtain ⟨-, -, -, -, -, -, ⟨e0, e1⟩, -⟩ := idx_whole t
  funext y
  unfold iblk
  rw [View.read_apply]
  show V m c main_arg8 _ = _
  rw [V_main_arg8]
  show m ((c : Thread nD τ).loc main_arg8) _ = m ((c : Thread nD τ).loc main_arg8) y
  congr 1
  funext a
  apply Fin.ext
  match a with
  | ⟨0, _⟩ => show win0_7.index t (0 : Fin 2) * 256 + 1 * (y 0).val = (y 0).val; rw [e0]; omega
  | ⟨1, _⟩ => show win0_7.index t (1 : Fin 2) * 128 + 1 * (y 1).val = (y 1).val; rw [e1]; omega

/-- A bias vector reshaped to one row, read back as a bias vector, is the vector. -/
theorem rowBias_shapeCast {H : ℕ} (b : FVec Ideal ⟨1, ![H]⟩ .f32) (hsc : (⟨1, ![H]⟩ : Shape).ShapeCasts ⟨2, ![1, H]⟩) :
    rowBias (shapeCast ⟨2, ![1, H]⟩ b hsc) = b := by
  funext i
  obtain ⟨h, rfl⟩ : ∃ h : Fin H, i = ix1 h := ⟨i 0, eq_ix1 i⟩
  show shapeCast ⟨2, ![1, H]⟩ b hsc (ix2 (0 : Fin 1) h) = b (ix1 h)
  exact shapeCast_a_1a_apply b hsc 0 h

/-- The bias rows are loaded whole: read as bias vectors they are the arguments. -/
theorem b1_block (c : Dev nD) (t : Fin cfg0.N) : rowBias (iblk m c 2 t : Vec Ideal S1x256 .f32) = argB1 m c := by
  obtain ⟨-, ⟨e0, e1⟩, -⟩ := idx_whole t
  have hb : (iblk m c 2 t : Vec Ideal S1x256 .f32) = shapeCast S1x256 (argB1 m c) shapeCasts_S256_S1x256 := by
    funext y
    unfold iblk
    rw [View.read_apply]
    show V m c main_v0 _ = _
    rw [V_bias1]
    congr 1
    funext a
    apply Fin.ext
    match a with
    | ⟨0, _⟩ => show win0_2.index t (0 : Fin 2) * 1 + 1 * (y 0).val = (y 0).val; rw [e0]; omega
    | ⟨1, _⟩ => show win0_2.index t (1 : Fin 2) * 256 + 1 * (y 1).val = (y 1).val; rw [e1]; omega
  rw [hb]
  exact rowBias_shapeCast _ _

theorem b2_block (c : Dev nD) (t : Fin cfg0.N) : rowBias (iblk m c 4 t : Vec Ideal S1x256 .f32) = argB2 m c := by
  obtain ⟨-, -, -, ⟨e0, e1⟩, -⟩ := idx_whole t
  have hb : (iblk m c 4 t : Vec Ideal S1x256 .f32) = shapeCast S1x256 (argB2 m c) shapeCasts_S256_S1x256 := by
    funext y
    unfold iblk
    rw [View.read_apply]
    show V m c main_v1 _ = _
    rw [V_bias2]
    congr 1
    funext a
    apply Fin.ext
    match a with
    | ⟨0, _⟩ => show win0_4.index t (0 : Fin 2) * 1 + 1 * (y 0).val = (y 0).val; rw [e0]; omega
    | ⟨1, _⟩ => show win0_4.index t (1 : Fin 2) * 256 + 1 * (y 1).val = (y 1).val; rw [e1]; omega
  rw [hb]
  exact rowBias_shapeCast _ _

theorem b3_block (c : Dev nD) (t : Fin cfg0.N) : rowBias (iblk m c 6 t : Vec Ideal S1x256 .f32) = argB3 m c := by
  obtain ⟨-, -, -, -, -, ⟨e0, e1⟩, -⟩ := idx_whole t
  have hb : (iblk m c 6 t : Vec Ideal S1x256 .f32) = shapeCast S1x256 (argB3 m c) shapeCasts_S256_S1x256 := by
    funext y
    unfold iblk
    rw [View.read_apply]
    show V m c main_v2 _ = _
    rw [V_bias3]
    congr 1
    funext a
    apply Fin.ext
    match a with
    | ⟨0, _⟩ => show win0_6.index t (0 : Fin 2) * 1 + 1 * (y 0).val = (y 0).val; rw [e0]; omega
    | ⟨1, _⟩ => show win0_6.index t (1 : Fin 2) * 256 + 1 * (y 1).val = (y 1).val; rw [e1]; omega
  rw [hb]
  exact rowBias_shapeCast _ _

theorem bo_block (c : Dev nD) (t : Fin cfg0.N) : rowBias (iblk m c 8 t : Vec Ideal S1x128 .f32) = argBo m c := by
  obtain ⟨-, -, -, -, -, -, -, ⟨e0, e1⟩⟩ := idx_whole t
  have hb : (iblk m c 8 t : Vec Ideal S1x128 .f32) = shapeCast S1x128 (argBo m c) shapeCasts_S128_S1x128 := by
    funext y
    unfold iblk
    rw [View.read_apply]
    show V m c main_v3 _ = _
    rw [V_biaso]
    congr 1
    funext a
    apply Fin.ext
    match a with
    | ⟨0, _⟩ => show win0_8.index t (0 : Fin 2) * 1 + 1 * (y 0).val = (y 0).val; rw [e0]; omega
    | ⟨1, _⟩ => show win0_8.index t (1 : Fin 2) * 128 + 1 * (y 1).val = (y 1).val; rw [e1]; omega
  rw [hb]
  exact rowBias_shapeCast _ _

/-! ## What each point writes back -/

theorem hz : (![0, 0] : Fin 2 → Nat) = fun _ => 0 := funext fun a => by fin_cases a <;> rfl

/-- The network block at a general index of the block. -/
theorem net_block_at (x0 : Vec Ideal S2000x256 .f32) (w1 : Vec Ideal S256x256 .f32) (b1 : Vec Ideal S1x256 .f32)
    (w2 : Vec Ideal S256x256 .f32) (b2 : Vec Ideal S1x256 .f32) (w3 : Vec Ideal S256x256 .f32) (b3 : Vec Ideal S1x256 .f32)
    (wo : Vec Ideal S256x128 .f32) (bo : Vec Ideal S1x128 .f32) (j : S2000x128.Idx) :
    k0_pay1 (F := Ideal) (k0_pay3 (F := Ideal) x0 w1 b1 w2 b2 w3 b3) (Scalar.ofBits .f32 0x00000000#32) wo bo j
      = netRow w1 (rowBias b1) w2 (rowBias b2) w3 (rowBias b3) wo (rowBias bo) (fun k => x0 (ix2 (j 0) k)) (j 1) := by
  obtain ⟨p, h, rfl⟩ : ∃ (p : Fin 2000) (h : Fin 128), j = ix2 p h := ⟨j 0, j 1, eq_ix2 j⟩
  exact net_block_apply x0 w1 b1 w2 b2 w3 b3 wo bo p h

/-- WHAT POINT `t` WRITES BACK to the network result is block `t` of the network applied to every node's row. -/
theorem flushed_net (c : Dev nD) (t : Fin cfg0.N) :
    (dats m 0 c).flushed 9 t = ((cfg0.win 9).blk t).view.read (Elt Ideal)
      (netOut (argX m c) (argW1 m c) (argB1 m c) (argW2 m c) (argB2 m c) (argW3 m c) (argB3 m c) (argWo m c) (argBo m c)) := by
  show (cfg0.win 9).cut (grid0.coords t) ((dats m 0 c).after 9 t) = _
  rw [after0_9]
  unfold out0_9
  rw [View.canon_unit_zero hz]
  simp only [View.ld_unit_zero (S := S2000x256) hz, View.ld_unit_zero (S := S256x256) hz, View.ld_unit_zero (S := S1x256) hz,
    View.ld_unit_zero (S := S256x128) hz, View.ld_unit_zero (S := S1x128) hz]
  obtain ⟨-, -, e0, e1, -⟩ := idx_rows t
  funext j
  show k0_pay1 (F := Ideal) (k0_pay3 (F := Ideal) (iblk m c 0 t) (iblk m c 1 t) (iblk m c 2 t) (iblk m c 3 t) (iblk m c 4 t)
      (iblk m c 5 t) (iblk m c 6 t)) (Scalar.ofBits .f32 0x00000000#32) (iblk m c 7 t) (iblk m c 8 t) j
    = netOut (argX m c) (argW1 m c) (argB1 m c) (argW2 m c) (argB2 m c) (argW3 m c) (argB3 m c) (argWo m c) (argBo m c)
        (((cfg0.win 9).blk t).view.emb j)
  refine (net_block_at (iblk m c 0 t) (iblk m c 1 t) (iblk m c 2 t) (iblk m c 3 t) (iblk m c 4 t) (iblk m c 5 t) (iblk m c 6 t)
    (iblk m c 7 t) (iblk m c 8 t) j).trans ?_
  rw [w1_block, b1_block, w2_block, b2_block, w3_block, b3_block, wo_block, bo_block]
  unfold netOut rowOf
  have h1 : (((cfg0.win 9).blk t).view.emb j) 1 = j 1 :=
    Fin.ext (by show win0_9.index t (1 : Fin 2) * 128 + 1 * (j 1).val = (j 1).val; rw [e1]; omega)
  have h0 : (fun k : Fin 256 => (iblk m c 0 t : Vec Ideal S2000x256 .f32) (ix2 (j 0) k))
      = fun k => argX m c (ix2 ((((cfg0.win 9).blk t).view.emb j) 0) k) :=
    funext fun k => node_block_apply m c t (j 0) k _
      (by show win0_9.index t (0 : Fin 2) * 2000 + 1 * (j 0).val = t.val * 2000 + (j 0).val; rw [e0, Nat.one_mul])
  rw [h0, h1]

/-- The column result the kernel writes: entry `(n, 0)` the mean of node `n`'s row. -/
def meanCol (X : Mat 200000 256) : (⟨2, ![200000, 1]⟩ : Shape).Idx → EReal := fun i => meanRow (rowOf X (i 0))

/-- WHAT POINT `t` WRITES BACK to the column result is block `t` of the column of row means. -/
theorem flushed_mean (c : Dev nD) (t : Fin cfg0.N) :
    (dats m 0 c).flushed 10 t = ((cfg0.win 10).blk t).view.read (Elt Ideal) (meanCol (argX m c)) := by
  show (cfg0.win 10).cut (grid0.coords t) ((dats m 0 c).after 10 t) = _
  rw [after0_10]
  unfold out0_10
  rw [View.canon_unit_zero hz]
  simp only [View.ld_unit_zero (S := S2000x256) hz]
  obtain ⟨-, -, -, -, e0, e1⟩ := idx_rows t
  funext j
  show k0_pay2 (F := Ideal) (iblk m c 0 t) j = meanCol (argX m c) (((cfg0.win 10).blk t).view.emb j)
  obtain ⟨p, u, rfl⟩ : ∃ (p : Fin 2000) (u : Fin 1), j = ix2 p u := ⟨j 0, j 1, eq_ix2 j⟩
  refine (mean_block_apply (iblk m c 0 t) p u).trans ?_
  unfold meanCol rowOf
  refine congrArg meanRow (funext fun k => node_block_apply m c t p k _ ?_)
  show win0_10.index t (0 : Fin 2) * 2000 + 1 * p.val = t.val * 2000 + p.val
  rw [e0, Nat.one_mul]

/-! ## The blocks tile the results -/

/-- An index of the network result is in point `t`'s block iff each coordinate is in the block's range on its axis. -/
theorem mem_net_blk (t : Fin cfg0.N) (i : S200000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v4_0).slice (win0_9.rect t)).set ↔ _
  rw [View.set_slice_whole, Rect.mem_set_unit]
  exact Iff.rfl

theorem mem_mean_blk (t : Fin cfg0.N) (i : S200000x1.Idx) :
    i ∈ ((cfg0.win 10).blk t).view.set ↔ ∀ a : Fin 2, win0_10.index t a * S2000x1.size a ≤ (i a).val
      ∧ (i a).val < win0_10.index t a * S2000x1.size a + S2000x1.size a := by
  show i ∈ ((View.whole main_v4_1).slice (win0_10.rect t)).set ↔ _
  rw [View.set_slice_whole, Rect.mem_set_unit]
  exact Iff.rfl

/-- Row `r` of the network result is written by point `r / 2000`. -/
theorem net_cover (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  have hN : (i 0).val / 2000 < cfg0.N := by rw [N_eq]; omega
  refine ⟨⟨(i 0).val / 2000, hN⟩, flush0_9 _, ?_⟩
  rw [mem_net_blk]
  obtain ⟨-, -, e0, e1, -⟩ := idx_rows ⟨(i 0).val / 2000, hN⟩
  have e0' : win0_9.index ⟨(i 0).val / 2000, hN⟩ (0 : Fin 2) = (i 0).val / 2000 := e0
  intro a
  match a with
  | ⟨0, _⟩ =>
    show win0_9.index ⟨(i 0).val / 2000, hN⟩ (0 : Fin 2) * 2000 ≤ (i 0).val
      ∧ (i 0).val < win0_9.index ⟨(i 0).val / 2000, hN⟩ (0 : Fin 2) * 2000 + 2000
    rw [e0']; omega
  | ⟨1, _⟩ =>
    show win0_9.index ⟨(i 0).val / 2000, hN⟩ (1 : Fin 2) * 128 ≤ (i 1).val
      ∧ (i 1).val < win0_9.index ⟨(i 0).val / 2000, hN⟩ (1 : Fin 2) * 128 + 128
    rw [e1]; omega

theorem mean_cover (i : S200000x1.Idx) :
    ∃ t : Fin cfg0.N, (cfg0.win 10).flush t = true ∧ i ∈ ((cfg0.win 10).blk t).view.set := by
  have hi0 : (i 0).val < 200000 := (i 0).isLt
  have hi1 : (i 1).val < 1 := (i 1).isLt
  have hN : (i 0).val / 2000 < cfg0.N := by rw [N_eq]; omega
  refine ⟨⟨(i 0).val / 2000, hN⟩, flush0_10 _, ?_⟩
  rw [mem_mean_blk]
  obtain ⟨-, -, -, -, e0, e1⟩ := idx_rows ⟨(i 0).val / 2000, hN⟩
  have e0' : win0_10.index ⟨(i 0).val / 2000, hN⟩ (0 : Fin 2) = (i 0).val / 2000 := e0
  intro a
  match a with
  | ⟨0, _⟩ =>
    show win0_10.index ⟨(i 0).val / 2000, hN⟩ (0 : Fin 2) * 2000 ≤ (i 0).val
      ∧ (i 0).val < win0_10.index ⟨(i 0).val / 2000, hN⟩ (0 : Fin 2) * 2000 + 2000
    rw [e0']; omega
  | ⟨1, _⟩ =>
    show win0_10.index ⟨(i 0).val / 2000, hN⟩ (1 : Fin 2) * 1 ≤ (i 1).val
      ∧ (i 1).val < win0_10.index ⟨(i 0).val / 2000, hN⟩ (1 : Fin 2) * 1 + 1
    rw [e1]; omega

/-! ## The two arrays after the region -/

/-- THE NETWORK RESULT after the run. -/
theorem final_net (c : Dev nD) : (dats m 0 c).arrAt 9 cfg0.N
    = netOut (argX m c) (argW1 m c) (argB1 m c) (argW2 m c) (argB2 m c) (argW3 m c) (argB3 m c) (argWo m c) (argBo m c) :=
  (dats m 0 c).arrAt_eq_of_cover 9 _ (fun t _ => flushed_net m c t) net_cover

/-- THE COLUMN RESULT after the region. -/
theorem final_mean (c : Dev nD) : (dats m 0 c).arrAt 10 cfg0.N = meanCol (argX m c) :=
  (dats m 0 c).arrAt_eq_of_cover 10 _ (fun t _ => flushed_mean m c t) mean_cover

/-- A column read as a vector: position `p` reads `(p, 0)`. -/
theorem shapeCast_a1_a_apply {α : Type} {a : ℕ} (v : (⟨2, ![a, 1]⟩ : Shape).Idx → α)
    (hsc : (⟨2, ![a, 1]⟩ : Shape).ShapeCasts ⟨1, ![a]⟩) (p : Fin a) :
    shapeCast ⟨1, ![a]⟩ v hsc (ix1 p) = v (ix2 p (0 : Fin 1)) :=
  shapeCast_apply v hsc _ _ (by
    rw [Shape.rowMajor_val_two, Shape.rowMajor_val_one]
    show p.val * 1 + 0 = p.val
    rw [Nat.mul_one, Nat.add_zero])

/-- THE MEAN RESULT: the host line after the region reads the column result as a vector. -/
theorem tail_mean (c : Dev nD) :
    Pipeline.afterTail₀ cfgs (dats m) 0 (V0 m) [hostOps1] c main_v5 = meanOut (argX m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4_1)
      = meanCol (argX m c) :=
    (Pipeline.withArrays_arr spec0 launch0.win.arr_inj c _ _ 10).trans (final_mean m c)
  funext i
  obtain ⟨n, rfl⟩ : ∃ n : Fin 200000, i = ix1 n := ⟨i 0, eq_ix1 i⟩
  show shapeCast S200000 (Pipeline.withArrays (cfgs 0).spec c (V0 m c) (fun w => (dats m 0 c).arrAt w (cfgs 0).N)
      (Proc.devRef .tc main_v4_1)) shapeCasts_S200000x1_S200000 (ix1 n) = meanOut (argX m c) (ix1 n)
  refine (shapeCast_a1_a_apply _ _ n).trans ?_
  rw [hw]
  rfl

/-! ## The run, read -/

/-- Every weakly fair execution of the kernel program ends with the network result at the network applied to every node's
    row, the mean result at every node's row mean, and the arguments as launched. -/
theorem run : θ_run defs (onTc (τ := τ) (main (F := Ideal))) ⟨m, fun _ => 0, ρ⟩ fun r => ∀ c : Dev nD,
      r.2.mem ((c.tc : Thread nD τ).loc main_v4_0)
        = netOut (argX m c) (argW1 m c) (argB1 m c) (argW2 m c) (argB2 m c) (argW3 m c) (argB3 m c) (argWo m c) (argBo m c)
      ∧ r.2.mem ((c.tc : Thread nD τ).loc main_v5) = meanOut (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).1 9).trans (final_net m c),
      ((h c).2 main_v5 (Pipeline.mem_restRefs_of main_v5 (by decide) (by decide))).trans (tail_mean m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).1 7).trans (((dats m 0 c).arrAt_in 7 rfl _).trans ((A_eq m c 7).trans (V_main_arg8 m c))),
      ((h c).2 main_arg9 (Pipeline.mem_restRefs_of main_arg9 (by decide) (by decide))).trans (W_main_arg9 m (dats m) c)⟩)
    (run_main m ρ)

end Cert.KernelIdeal.Arrays

end
-- ==== Proof.lean ====
/-
  The kernel against its reference, over the extended reals.

  Both programs take 200000 nodes of 256 features, three 256 × 256 weight matrices with their biases and a 256 × 128
  projection with its bias, and return two things: for every node the four-layer network applied to its row (dense,
  positive part, three times, then the projection), and for every node the mean of its row.  The kernel computes both on
  blocks of 2000 rows, its matrix products on narrowed operands into zero accumulators (at the ideal values: the plain sums),
  its biases passed as rows; the reference computes them on the whole arrays, the mean over a gather of the rows at the
  positions 0, 1, 2, …, which is the identity.  Index by index the two are one function, `NodeNet.netOut` and
  `NodeNet.meanOut`; only the order of finite sums differs, so the finiteness of the inputs is not used.
  The three frames are the programs' runs with the results dropped; nothing was rewritten when the kernel was idealized.
-/
import proofs.«159583_j41540923687233_1_alg».proof.Defs
import proofs.«159583_j41540923687233_1_alg».proof.Proof.Gen.Kernel
import proofs.«159583_j41540923687233_1_alg».proof.Proof.Gen.Kernel.Skeleton
import proofs.«159583_j41540923687233_1_alg».proof.Proof.Gen.Kernel.Launch
import proofs.«159583_j41540923687233_1_alg».proof.Proof.Gen.Kernel.Points
import proofs.«159583_j41540923687233_1_alg».proof.Proof.Gen.Kernel.Frame
import proofs.«159583_j41540923687233_1_alg».proof.Proof.Gen.KernelIdeal
import proofs.«159583_j41540923687233_1_alg».proof.Proof.Gen.KernelIdeal.Skeleton
import proofs.«159583_j41540923687233_1_alg».proof.Proof.Gen.KernelIdeal.Launch
import proofs.«159583_j41540923687233_1_alg».proof.Proof.Gen.KernelIdeal.Points
import proofs.«159583_j41540923687233_1_alg».proof.Proof.Gen.KernelIdeal.Frame
import proofs.«159583_j41540923687233_1_alg».proof.Proof.Gen.ReferenceIdeal
import proofs.«159583_j41540923687233_1_alg».proof.Proof.Gen.ReferenceIdeal.Run
import proofs.«159583_j41540923687233_1_alg».proof.Proof.Gen.ReferenceIdeal.Read
import proofs.«159583_j41540923687233_1_alg».proof.Proof.Gen.Pre_finite_inputs
import proofs.«159583_j41540923687233_1_alg».proof.Proof.RefRows
import proofs.«159583_j41540923687233_1_alg».proof.Proof.KernelArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The two idealized programs, from memories that agree on the arguments, end with the same two results: the network
    applied to every node's row and every node's row mean, of the kernel's arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    obtain ⟨a0, -, a2, a3, a4, a5, a6, a7, a8, a9⟩ := hagree c
    rw [Cert.ReferenceIdeal.Read.val_main_v29_eq, Cert.ReferenceIdeal.Rows.net_eq, a0, a2, a3, a4, a5, a6, a7, a8, a9]
  · refine (h c).2.1.trans ?_
    obtain ⟨a0, -⟩ := hagree c
    rw [Cert.ReferenceIdeal.Read.val_main_v10_eq, Cert.ReferenceIdeal.Rows.mean_eq, a0]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
